-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S100000x128 .f32) (main_arg1 : IVec S1600000 32) (main_arg2 : IVec S1600000 32) (main_arg3 : FVec F S1600000 .f32) (main_arg4 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x64 : Shape := ⟨2, ![128, 64]⟩
abbrev S100000x64 : Shape := ⟨2, ![100000, 64]⟩
abbrev S5000x128 : Shape := ⟨2, ![5000, 128]⟩
abbrev S5000x64 : Shape := ⟨2, ![5000, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 23
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S100000x64, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S100000x64, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S100000x64, .f32⟩
  | .hbm, ⟨24, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.ProjectionBlock.lean ====
/-
  One row block of the dense projection, entry by entry.

  At a grid point the projection's body holds a block `xb` of 5000 rows of `x` and the whole weight matrix `wb`,
  narrows both to bf16 and multiplies them on the matrix unit into a zero accumulator. Over the extended reals the
  narrowing is the identity and the product into zero is the plain sum, so the block's entry (p, q) is
  `∑ k, xb (p, k) * wb (k, q)` over the 128 contracted coordinates: nothing of the bf16 format and nothing of the
  order of accumulation is left in it.
-/
import proofs.«154081_j67104569032788_1_alg».proof.Proof.Gen.KernelIdeal.Skeleton
import Idealize.ShloMosaic.Lib.ValueIdx
import Idealize.ShloMosaic.PureOps.Ideal.Laws

noncomputable section

namespace Cert.KernelIdeal.Projection

open Cert.KernelIdeal Cert.KernelIdeal.Gen Idealize.ShloMosaic Idealize.ShloMosaic.TcCoe

/-! ## Which operand entries the product's entry reads -/

/-- The left operand is read in the output's row: its axis 0 is the output's axis 0. -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's axis 1 is the contracted coordinate. -/
theorem lhs_contr (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's axis 0 is the contracted coordinate. -/
theorem rhs_contr (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand is read in the output's column: its axis 1 is the output's axis 1. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (row of `i`, `k`) of a block of rows. -/
abbrev rowEntry (i : S5000x64.Idx) (k : Fin 128) : S5000x128.Idx := fun a => match a with
  | ⟨0, _⟩ => ⟨(i 0).val, (i 0).isLt⟩
  | ⟨1, _⟩ => ⟨k.val, k.isLt⟩
/-- Entry (`k`, column of `i`) of the weight matrix. -/
abbrev colEntry (i : S5000x64.Idx) (k : Fin 128) : S128x64.Idx := fun a => match a with
  | ⟨0, _⟩ => ⟨k.val, k.isLt⟩
  | ⟨1, _⟩ => ⟨(i 1).val, (i 1).isLt⟩

/-! ## The block's entry -/

/-- Over the extended reals the body's product block is, entry by entry, the sum over the contracted coordinate of
    the row block's entry times the weight's entry. -/
theorem block_apply (xb : Vec Ideal S5000x128 .f32) (wb : Vec Ideal S128x64 .f32) (i : S5000x64.Idx) :
    k0_pay1 (F := Ideal) xb wb i = ∑ k : Fin 128, xb (rowEntry i k) * wb (colEntry i k) := by
  unfold k0_pay1
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = rowEntry i k := funext fun a => Fin.ext (by
    match a with
    | ⟨0, _⟩ => exact lhs_row _ _
    | ⟨1, _⟩ => exact (lhs_contr _ _).trans hk)
  have er : dot_S5000x128_S128x64_S5000x64_1_0_0_1_n_n.rhsIdx i ((ValueIdx.contrEquiv1 dot_S5000x128_S128x64_S5000x64_1_0_0_1_n_n 128 rfl rfl).symm k) = colEntry i k := funext fun a => Fin.ext (by
    match a with
    | ⟨0, _⟩ => exact (rhs_contr _ _).trans hk
    | ⟨1, _⟩ => exact rhs_col _ _)
  rw [el, er]
  rfl

end Cert.KernelIdeal.Projection

end
-- ==== Proof.ProjectionWhole.lean ====
/-
  The dense projection's output array after its 20 grid points.

  Grid point `t` stages rows 5000·t … 5000·t + 4999 of `x` and the whole weight matrix, and writes back the product
  block of module ProjectionBlock into the same rows of the output. So what every point writes back is ITS row block of
  ONE whole array, `product x w (r, q) = ∑ k, x (r, k) * w (k, q)`; the 20 blocks tile the 100000 rows (row `r` lies
  in block `r / 5000`), hence after the last point the output array IS `product x w` of the arrays the region
  was entered with.
-/
import proofs.«154081_j67104569032788_1_alg».proof.Proof.Gen.KernelIdeal.Frame
import proofs.«154081_j67104569032788_1_alg».proof.Proof.ProjectionBlock
import Idealize.ShloMosaic.Lib.Pipeline.Value

set_option maxRecDepth 16384

noncomputable section

namespace Cert.KernelIdeal.Projection

open Cert.KernelIdeal Cert.KernelIdeal.Gen Idealize.ShloMosaic Idealize.ShloMosaic.TcCoe Idealize.SL.Sem
open Idealize.ShloMosaic.Pipeline (Dat Cfg Window)

/-- Entry (row of `i`, `k`) of `x`. -/
abbrev xEntry (i : S100000x64.Idx) (k : Fin 128) : S100000x128.Idx := fun a => match a with
  | ⟨0, _⟩ => ⟨(i 0).val, (i 0).isLt⟩
  | ⟨1, _⟩ => ⟨k.val, k.isLt⟩
/-- Entry (`k`, column of `i`) of the weight matrix. -/
abbrev wEntry (i : S100000x64.Idx) (k : Fin 128) : S128x64.Idx := fun a => match a with
  | ⟨0, _⟩ => ⟨k.val, k.isLt⟩
  | ⟨1, _⟩ => ⟨(i 1).val, (i 1).isLt⟩

/-- The whole projection over the extended reals: entry (r, q) is the sum over the 128 contracted coordinates of
    `x (r, k) * w (k, q)`. -/
def product (x : Vec Ideal S100000x128 .f32) (w : Vec Ideal S128x64 .f32) : Vec Ideal S100000x64 .f32 :=
  fun i => ∑ k : Fin 128, x (xEntry i k) * w (wEntry i k)

theorem zeros : (![0, 0] : Fin 2 → Nat) = fun _ => 0 := funext fun a => by fin_cases a <;> rfl

/-- The block index maps over the grid: the row blocks of `x` and of the output move together, one block per point;
    the weight matrix and every column block stay at block 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

variable (V : (c : Dev nD) → (b : Ref sig .tc) → Buf (Elt Ideal) ((c : Thread nD τ).loc b))

/-- The arrays the region was entered with, at their literal types. -/
abbrev xArr (c : Dev nD) : Vec Ideal S100000x128 .f32 := V c main_arg0
abbrev wArr (c : Dev nD) : Vec Ideal S128x64 .f32 := V c main_arg4

/-- What point `t` writes back is row block `t` of the whole product of the arrays the region was entered with. -/
theorem flushed_eq (c : Dev nD) (t : Fin cfg0.N) :
    (dat0 V c).flushed 2 t = ((cfg0.win 2).blk t).view.read (Elt Ideal) (product (xArr V c) (wArr V c)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x64) zeros]
  obtain ⟨e0, e1, e2, e3, e4, e5⟩ := index_facts t
  funext j
  show k0_pay1 (F := Ideal) (iblk0 V c 0 t) (iblk0 V c 1 t) j = product (xArr V c) (wArr V c) (((cfg0.win 2).blk t).view.emb j)
  refine (block_apply (iblk0 V c 0 t) (iblk0 V c 1 t) j).trans ?_
  unfold product
  refine Finset.sum_congr rfl fun k _ => ?_
  show xArr V c (((cfg0.win 0).blk t).view.emb (rowEntry j k)) * wArr V c (((cfg0.win 1).blk t).view.emb (colEntry j k))
    = xArr V c (xEntry (((cfg0.win 2).blk t).view.emb j) k) * wArr V c (wEntry (((cfg0.win 2).blk t).view.emb j) k)
  have hx : ((cfg0.win 0).blk t).view.emb (rowEntry j k) = xEntry (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : ((cfg0.win 1).blk t).view.emb (colEntry j k) = wEntry (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hx, hw]

/-- An entry of the output lies in point `t`'s block iff each coordinate lies in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every entry of the output lies in some point's block: row `r` in block `r / 5000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, e2, e3, e4, e5⟩ := index_facts t
  have e5' : win0_2.index t (0 : Fin 2) = (i 0).val / 5000 := e5
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the output array is the whole product of the arrays it was entered with. -/
theorem whole (c : Dev nD) : (dat0 V c).arrAt 2 cfg0.N = product (xArr V c) (wArr V c) :=
  (dat0 V c).arrAt_eq_of_cover 2 _ (fun t _ => flushed_eq V c t) cover

end Cert.KernelIdeal.Projection

end
-- ==== Proof.ActivationWhole.lean ====
/-
  The activation's output array after its 20 grid points.

  Grid point `t` stages rows 5000·t … 5000·t + 4999 of the aggregated messages and writes back, into the same rows of
  the output, the entrywise maximum of that block with zero. So what every point writes back is ITS row block of ONE whole
  array, `relu a (r, q) = max (a (r, q)) 0`; the 20 blocks tile the 100000 rows (row `r` lies in block `r / 5000`),
  hence after the last point the output array IS `relu a` of the array the region was entered with.
-/
import proofs.«154081_j67104569032788_1_alg».proof.Proof.Gen.KernelIdeal.Frame
import Idealize.ShloMosaic.Lib.Pipeline.Value
import Idealize.ShloMosaic.PureOps.Ideal

set_option maxRecDepth 16384

noncomputable section

namespace Cert.KernelIdeal.Activation

open Cert.KernelIdeal Cert.KernelIdeal.Gen Idealize.ShloMosaic Idealize.ShloMosaic.TcCoe Idealize.SL.Sem
open Idealize.ShloMosaic.Pipeline (Dat Cfg Window)

/-- The whole activation: entry by entry the maximum with zero. -/
def relu (a : FVec Ideal S100000x64 .f32) : FVec Ideal S100000x64 .f32 :=
  fun i => FloatOps.maximumf (F := Ideal) (φ := .f32) (a i) (FloatOps.ofBits .f32 0x00000000#32)

/-- The body's block, entry by entry: the reshape to the same shape is the identity and the zero is splat, so the
    entry is the maximum of the loaded entry with zero. -/
theorem block_apply (v : FVec Ideal S5000x64 .f32) (j : S5000x64.Idx) :
    k1_pay1 (F := Ideal) v j = FloatOps.maximumf (F := Ideal) (φ := .f32) (v j) (FloatOps.ofBits .f32 0x00000000#32) := by
  unfold k1_pay1
  show FloatOps.maximumf (F := Ideal) (φ := .f32) (shapeCast S5000x64 v shapeCasts_S5000x64_S5000x64 j) _ = _
  rw [shapeCast_self]
  rfl

theorem zeros : (![0, 0] : Fin 2 → Nat) = fun _ => 0 := funext fun a => by fin_cases a <;> rfl

/-- The block index maps over the grid: input and output row blocks move together, one block per point, and the
    column block stays at 0. -/
theorem index_facts : ∀ t : Fin cfg1.N, win1_0.index t (0 : Fin 2) = win1_1.index t (0 : Fin 2)
    ∧ win1_0.index t (1 : Fin 2) = win1_1.index t (1 : Fin 2)
    ∧ win1_1.index t (1 : Fin 2) = 0
    ∧ win1_1.index t (0 : Fin 2) = t.val :=
  (by decide +kernel : ∀ t : Fin grid1.N, _)

variable (V : (c : Dev nD) → (b : Ref sig .tc) → Buf (Elt Ideal) ((c : Thread nD τ).loc b))

/-- The aggregated messages the region was entered with, at their literal type. -/
abbrev aggArr (c : Dev nD) : FVec Ideal S100000x64 .f32 := V c main_v13

/-- What point `t` writes back is row block `t` of the whole activation of the array the region was entered with. -/
theorem flushed_eq (c : Dev nD) (t : Fin cfg1.N) :
    (dat1 V c).flushed 1 t = ((cfg1.win 1).blk t).view.read (Elt Ideal) (relu (aggArr V c)) := by
  show (cfg1.win 1).cut (grid1.coords t) ((dat1 V c).after 1 t) = _
  rw [after1_1]
  unfold out1_1
  rw [View.canon_unit_zero zeros]
  simp only [View.ld_unit_zero (S := S5000x64) zeros]
  obtain ⟨e0, e1, e2, e3⟩ := index_facts t
  funext j
  show k1_pay1 (F := Ideal) (iblk1 V c 0 t) j = relu (aggArr V c) (((cfg1.win 1).blk t).view.emb j)
  refine (block_apply (iblk1 V c 0 t) j).trans ?_
  show FloatOps.maximumf (F := Ideal) (φ := .f32) (aggArr V c (((cfg1.win 0).blk t).view.emb j)) _ = FloatOps.maximumf (F := Ideal) (φ := .f32) (aggArr V c (((cfg1.win 1).blk t).view.emb j)) _
  have h : ((cfg1.win 0).blk t).view.emb j = ((cfg1.win 1).blk t).view.emb j := by
    funext a; apply Fin.ext
    match a with
    | ⟨0, _⟩ => show win1_0.index t (0 : Fin 2) * 5000 + 1 * (j 0).val = win1_1.index t (0 : Fin 2) * 5000 + 1 * (j 0).val; omega
    | ⟨1, _⟩ => show win1_0.index t (1 : Fin 2) * 64 + 1 * (j 1).val = win1_1.index t (1 : Fin 2) * 64 + 1 * (j 1).val; omega
  rw [h]

/-- An entry of the output lies in point `t`'s block iff each coordinate lies in the block's range on its axis. -/
theorem mem_block (t : Fin cfg1.N) (i : S100000x64.Idx) :
    i ∈ ((cfg1.win 1).blk t).view.set ↔ ∀ a : Fin 2, win1_1.index t a * S5000x64.size a ≤ (i a).val ∧ (i a).val < win1_1.index t a * S5000x64.size a + S5000x64.size a := by
  show i ∈ ((View.whole main_v14).slice (win1_1.rect t)).set ↔ _
  rw [View.set_slice_whole, Rect.mem_set_unit]
  exact Iff.rfl

/-- Every entry of the output lies in some point's block: row `r` in block `r / 5000`. -/
theorem cover (i : S100000x64.Idx) :
    ∃ t : Fin cfg1.N, (cfg1.win 1).flush t = true ∧ i ∈ ((cfg1.win 1).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, e2, e3⟩ := index_facts t
  have e3' : win1_1.index t (0 : Fin 2) = (i 0).val / 5000 := e3
  refine ⟨t, flush1_1 t, ?_⟩
  rw [mem_block]
  intro a
  match a with
  | ⟨0, _⟩ => show win1_1.index t (0 : Fin 2) * 5000 ≤ (i 0).val ∧ (i 0).val < win1_1.index t (0 : Fin 2) * 5000 + 5000; omega
  | ⟨1, _⟩ => show win1_1.index t (1 : Fin 2) * 64 ≤ (i 1).val ∧ (i 1).val < win1_1.index t (1 : Fin 2) * 64 + 64; omega

/-- After the region the output array is the whole activation of the array it was entered with. -/
theorem whole (c : Dev nD) : (dat1 V c).arrAt 1 cfg1.N = relu (aggArr V c) :=
  (dat1 V c).arrAt_eq_of_cover 1 _ (fun t _ => flushed_eq V c t) cover

end Cert.KernelIdeal.Activation

end
-- ==== Proof.Aggregate.lean ====
/-
  The sparse aggregation between the two regions, as one function.

  Between the projection and the activation the host gathers, for every edge `e`, the projected row `xw[col e]` (a
  negative column index first wrapped by the number of rows), scales it by the edge's value, and adds the scaled rows
  into the output rows `row e` of a zero array. Here that stretch of operations is named ONCE, as a function
  `aggregate` of the projected rows and the three edge arrays, and what the stretch leaves in the aggregated buffer,
  from ANY contents of the buffers, is that function of the contents of its four operands. Nothing below ever looks
  inside the gather or the scatter: the reference applies the very same operations to its own projected rows.
-/
import proofs.«154081_j67104569032788_1_alg».proof.Proof.Gen.KernelIdeal.Launch
import Idealize.ShloMosaic.Lib.StableHlo.Run
import Idealize.ShloMosaic.PureOps.Ideal

set_option maxRecDepth 16384

noncomputable section

namespace Cert.KernelIdeal.Aggregate

open Cert.KernelIdeal Cert.KernelIdeal.Gen Idealize.ShloMosaic Idealize.ShloMosaic.TcCoe Idealize.SL.Sem Idealize.ShloMosaic.StableHlo

/-- Gather the projected rows by column index, scale each by its edge value, and sum the scaled rows into their
    output rows, starting from zero. -/
def aggregate (xw : (⟨S100000x64, .f32⟩ : BufTy).Contents (Elt Ideal)) (row col : (⟨S1600000, .i32⟩ : BufTy).Contents (Elt Ideal))
    (val : (⟨S1600000, .f32⟩ : BufTy).Contents (Elt Ideal)) : (⟨S100000x64, .f32⟩ : BufTy).Contents (Elt Ideal) :=
  Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 row) (mulf (F := Ideal) (broadcastInDim S1600000x64 ![0, 1] bcast_S1600000x1_S1600000x64_0_1 (broadcastInDim S1600000x1 ![0] bcast_S1600000_S1600000x1_0 val)) (Host.gather gather_S100000x64_S1600000x1_S1600000x64_1_0_n_n_0_1_164 xw (broadcastInDim S1600000x1 ![0] bcast_S1600000_S1600000x1_0 (select (cmpi .slt col (broadcastInDim S1600000 ![] bcast_S_S1600000 (constantI S_ 32 0#32))) (addi col (broadcastInDim S1600000 ![] bcast_S_S1600000 (constantI S_ 32 100000#32))) col))))

/-- From any buffer contents `W`, the host stretch leaves the aggregated buffer at `aggregate` of what `W` holds in
    the projected rows' buffer and in the three edge arrays. -/
theorem after_stretch (W : Valuation τ sig (Elt Ideal)) :
    StableHlo.after (hostOps1 (F := Ideal)) W (Proc.devRef .tc main_v13)
      = aggregate (W (Proc.devRef .tc main_v0)) (W (Proc.devRef .tc main_arg1)) (W (Proc.devRef .tc main_arg2)) (W (Proc.devRef .tc main_arg3)) := by
  after_results
  rfl

end Cert.KernelIdeal.Aggregate

end
-- ==== Proof.KernelResult.lean ====
/-
  The result buffer at the end of the run, as one function of the five arguments.

  The last boundary of the run holds, for the result buffer, what the activation region's write-backs leave: the
  entrywise maximum with zero (module ActivationWhole) of the aggregated messages the region was entered with. Those
  are what the host stretch leaves (module Aggregate) from the contents at the first region's exit: the edge arrays
  untouched since the launch, and the projected rows at what the projection region's write-backs leave, the whole
  product of `x` and the weight matrix (module ProjectionWhole). Composed:
  `result x row col val w = relu (aggregate (product x w) row col val)`.
-/
import proofs.«154081_j67104569032788_1_alg».proof.Proof.Gen.KernelIdeal.Frame
import proofs.«154081_j67104569032788_1_alg».proof.Proof.ProjectionWhole
import proofs.«154081_j67104569032788_1_alg».proof.Proof.ActivationWhole
import proofs.«154081_j67104569032788_1_alg».proof.Proof.Aggregate

set_option maxRecDepth 16384

noncomputable section

namespace Cert.KernelIdeal.Result

open Cert.KernelIdeal Cert.KernelIdeal.Gen Idealize.ShloMosaic Idealize.ShloMosaic.TcCoe Idealize.SL.Sem

/-- The kernel program's result over the extended reals: project, aggregate over the edges, clamp at zero. -/
def result (x : (⟨S100000x128, .f32⟩ : BufTy).Contents (Elt Ideal)) (row col : (⟨S1600000, .i32⟩ : BufTy).Contents (Elt Ideal))
    (val : (⟨S1600000, .f32⟩ : BufTy).Contents (Elt Ideal)) (w : (⟨S128x64, .f32⟩ : BufTy).Contents (Elt Ideal)) :
    (⟨S100000x64, .f32⟩ : BufTy).Contents (Elt Ideal) :=
  Activation.relu (Aggregate.aggregate (Projection.product x w) row col val)

variable (m : (ℓ : Loc nD τ sig) → Buf (Elt Ideal) ℓ) (ρ : Dev nD → PrngReg)

/-- At the first region's exit the projected rows' buffer holds the whole product of the launch contents of `x` and
    of the weight matrix. -/
theorem projected (c : Dev nD) :
    W1 m ρ c (Proc.devRef .tc main_v0) = Projection.product (m ((c : Thread nD τ).loc main_arg0)) (m ((c : Thread nD τ).loc main_arg4)) :=
  (W1_arr m ρ c 2).trans (Projection.whole (V0 m ρ) c)

/-- The first region leaves the three edge arrays as launched. -/
theorem rows_kept (c : Dev nD) : W1 m ρ c (Proc.devRef .tc main_arg1) = m ((c : Thread nD τ).loc main_arg1) :=
  W1_of_ne m ρ c main_arg1 (by decide)
theorem cols_kept (c : Dev nD) : W1 m ρ c (Proc.devRef .tc main_arg2) = m ((c : Thread nD τ).loc main_arg2) :=
  W1_of_ne m ρ c main_arg2 (by decide)
theorem vals_kept (c : Dev nD) : W1 m ρ c (Proc.devRef .tc main_arg3) = m ((c : Thread nD τ).loc main_arg3) :=
  W1_of_ne m ρ c main_arg3 (by decide)

/-- At the second region's entry the aggregated buffer holds `aggregate` of the product and the edge arrays. -/
theorem aggregated (c : Dev nD) :
    W2 m ρ c (Proc.devRef .tc main_v13)
      = Aggregate.aggregate (Projection.product (m ((c : Thread nD τ).loc main_arg0)) (m ((c : Thread nD τ).loc main_arg4)))
          (m ((c : Thread nD τ).loc main_arg1)) (m ((c : Thread nD τ).loc main_arg2)) (m ((c : Thread nD τ).loc main_arg3)) := by
  show StableHlo.after (hostOps1 (F := Ideal)) (W1 m ρ c) (Proc.devRef .tc main_v13) = _
  rw [Aggregate.after_stretch, projected, rows_kept, cols_kept, vals_kept]

/-- At the last boundary the result buffer holds `result` of the five arguments' launch contents. -/
theorem final_eq (c : Dev nD) :
    W3 m ρ c (Proc.devRef .tc main_v14)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (W3_arr m ρ c 1).trans ?_
  refine (Activation.whole (V2 m ρ) c).trans ?_
  unfold result
  exact congrArg Activation.relu (aggregated m ρ c)

end Cert.KernelIdeal.Result

end
-- ==== Proof.Bridge.lean ====
/-
  The kernel program's result and the reference's are one function of the five arguments.

  Stage by stage, over the extended reals:
  * the reference's `dot_general` of `x` and the weight matrix is, entry by entry, the sum over the contracted
    coordinate of `x (r, k) * w (k, q)` — the very sum the projection's blocks tile (`product`); neither side rounds,
    and a sum over the same 128 terms has no order left in it;
  * the reference applies to those projected rows the same gather, the same scaling by the edge values and the same
    scatter-add, with the same index wrap-around, as the kernel program's host stretch (`aggregate`): the two texts
    differ only in which program's copy of the gather and scatter dimension records they name;
  * the reference's `relu` is the entrywise maximum with a splat zero, as the activation's blocks are.
-/
import proofs.«154081_j67104569032788_1_alg».proof.Proof.KernelResult
import proofs.«154081_j67104569032788_1_alg».proof.Proof.Gen.ReferenceIdeal.Read

set_option maxRecDepth 16384

noncomputable section

namespace Cert.Bridge

open Idealize.ShloMosaic Idealize.ShloMosaic.TcCoe

/-- The reference's matrix product is the whole product the projection's blocks tile: the same sum over the
    contracted coordinate at every entry. -/
theorem product_eq (x : (⟨Cert.ReferenceIdeal.S100000x128, .f32⟩ : BufTy).Contents (Elt Ideal)) (w : (⟨Cert.ReferenceIdeal.S128x64, .f32⟩ : BufTy).Contents (Elt Ideal)) :
    Cert.ReferenceIdeal.Read.val_main_v0 (F := Ideal) x w = Cert.KernelIdeal.Projection.product x w := by
  funext i
  rw [Cert.ReferenceIdeal.Read.val_main_v0_apply]
  unfold Cert.KernelIdeal.Projection.product
  refine Finset.sum_congr rfl fun k _ => ?_
  have hl : Cert.ReferenceIdeal.Read.lidx_main_v0 i k = Cert.KernelIdeal.Projection.xEntry i k := funext fun a => by
    match a with
    | ⟨0, _⟩ => rfl
    | ⟨1, _⟩ => rfl
  have hr : Cert.ReferenceIdeal.Read.ridx_main_v0 i k = Cert.KernelIdeal.Projection.wEntry i k := funext fun a => by
    match a with
    | ⟨0, _⟩ => rfl
    | ⟨1, _⟩ => rfl
  rw [hl, hr]

/-- The reference's gather, scaling and scatter-add of its projected rows are the kernel program's host stretch
    applied to them: the same operations with the same dimension records. -/
theorem aggregate_eq (x : (⟨Cert.ReferenceIdeal.S100000x128, .f32⟩ : BufTy).Contents (Elt Ideal)) (row col : (⟨Cert.ReferenceIdeal.S1600000, .i32⟩ : BufTy).Contents (Elt Ideal))
    (val : (⟨Cert.ReferenceIdeal.S1600000, .f32⟩ : BufTy).Contents (Elt Ideal)) (w : (⟨Cert.ReferenceIdeal.S128x64, .f32⟩ : BufTy).Contents (Elt Ideal)) :
    Cert.ReferenceIdeal.Read.val_main_v13 (F := Ideal) x row col val w = Cert.KernelIdeal.Aggregate.aggregate (Cert.ReferenceIdeal.Read.val_main_v0 (F := Ideal) x w) row col val := by
  unfold Cert.ReferenceIdeal.Read.val_main_v13 Cert.ReferenceIdeal.Read.val_main_v10 Cert.ReferenceIdeal.Read.val_main_v8
  generalize Cert.ReferenceIdeal.Read.val_main_v0 (F := Ideal) x w = xw
  unfold Cert.KernelIdeal.Aggregate.aggregate Cert.ReferenceIdeal.Read.val_main_v11 Cert.ReferenceIdeal.Read.val_main_cst Cert.ReferenceIdeal.Read.val_main_v12 Cert.ReferenceIdeal.Read.val_main_v9 Cert.ReferenceIdeal.Read.val_main_v1
    Cert.ReferenceIdeal.Read.val_main_v7 Cert.ReferenceIdeal.Read.val_main_v6 Cert.ReferenceIdeal.Read.val_main_v3 Cert.ReferenceIdeal.Read.val_main_v2 Cert.ReferenceIdeal.Read.val_main_c Cert.ReferenceIdeal.Read.val_main_v5 Cert.ReferenceIdeal.Read.val_main_v4 Cert.ReferenceIdeal.Read.val_main_c_0
  rfl

/-- The reference's `relu` is the entrywise maximum with zero. -/
theorem relu_eq (a : (⟨Cert.ReferenceIdeal.S100000x64, .f32⟩ : BufTy).Contents (Elt Ideal)) :
    maximumf (F := Ideal) a (Cert.ReferenceIdeal.Read.val_main_call0_v0 (F := Ideal)) = Cert.KernelIdeal.Activation.relu a := by
  funext i
  show FloatOps.maximumf (F := Ideal) (φ := .f32) (a i) (Cert.ReferenceIdeal.Read.val_main_call0_v0 (F := Ideal) i)
    = FloatOps.maximumf (F := Ideal) (φ := .f32) (a i) (FloatOps.ofBits .f32 0x00000000#32)
  rw [Cert.ReferenceIdeal.Read.val_main_call0_v0_apply, Cert.ReferenceIdeal.Read.val_main_call0_cst_apply]

/-- The reference's result is the kernel program's result function of the same five arguments. -/
theorem result_eq (x : (⟨Cert.ReferenceIdeal.S100000x128, .f32⟩ : BufTy).Contents (Elt Ideal)) (row col : (⟨Cert.ReferenceIdeal.S1600000, .i32⟩ : BufTy).Contents (Elt Ideal))
    (val : (⟨Cert.ReferenceIdeal.S1600000, .f32⟩ : BufTy).Contents (Elt Ideal)) (w : (⟨Cert.ReferenceIdeal.S128x64, .f32⟩ : BufTy).Contents (Elt Ideal)) :
    Cert.ReferenceIdeal.Read.val_main_v14 (F := Ideal) x row col val w = Cert.KernelIdeal.Result.result x row col val w := by
  unfold Cert.ReferenceIdeal.Read.val_main_v14 Cert.KernelIdeal.Result.result
  rw [relu_eq, aggregate_eq, product_eq]

end Cert.Bridge

end
-- ==== Proof.lean ====
/- The proof of `Cert.Claim`: a graph layer `relu (A · (x · W))` with the sparse matrix `A` given by its edges
   (row, column, value), computed by a projection kernel, a host gather / scale / scatter-add, and an activation kernel,
   against the same layer written in jnp.

   Over the extended reals both programs compute ONE function of the five arguments:
   `relu (aggregate (product x W) row col val)`.
   * `product x W (r, q) = ∑ k, x (r, k) * W (k, q)`. The kernel narrows both operands to bf16 and accumulates in f32
     on the matrix unit, block of 5000 rows by block; over the extended reals the narrowing is the identity and the
     accumulation the plain sum, and the 20 row blocks tile the array (ProjectionBlock, ProjectionWhole). The
     reference's `dot_general` is the same sum (Bridge).
   * `aggregate` is the host stretch both programs share word for word: gather the projected rows by (wrapped) column
     index, scale by the edge value, add into the output rows from zero (Aggregate). It is never opened.
   * `relu` is the entrywise maximum with zero, block of 5000 rows by block in the kernel, whole in the reference
     (ActivationWhole, Bridge).
   No law of arithmetic beyond the identity of these terms is used, so finiteness of the inputs is never opened.
   The kernel program's run with its result buffer named is KernelIdealRun; KernelResult reads that buffer through the
   two regions and the stretch between them. The two kernel frames are the generated ones; the reference's frame is
   its generated run with the result dropped; the idealization rewrote nothing, so `preserves` is `True`. -/
import proofs.«154081_j67104569032788_1_alg».proof.Defs
import proofs.«154081_j67104569032788_1_alg».proof.Proof.Gen.Kernel
import proofs.«154081_j67104569032788_1_alg».proof.Proof.Gen.Kernel.Skeleton
import proofs.«154081_j67104569032788_1_alg».proof.Proof.Gen.Kernel.Launch
import proofs.«154081_j67104569032788_1_alg».proof.Proof.Gen.Kernel.Points
import proofs.«154081_j67104569032788_1_alg».proof.Proof.Gen.Kernel.Frame
import proofs.«154081_j67104569032788_1_alg».proof.Proof.Gen.KernelIdeal
import proofs.«154081_j67104569032788_1_alg».proof.Proof.Gen.KernelIdeal.Skeleton
import proofs.«154081_j67104569032788_1_alg».proof.Proof.Gen.KernelIdeal.Launch
import proofs.«154081_j67104569032788_1_alg».proof.Proof.Gen.KernelIdeal.Points
import proofs.«154081_j67104569032788_1_alg».proof.Proof.Gen.KernelIdeal.Frame
import proofs.«154081_j67104569032788_1_alg».proof.Proof.Gen.ReferenceIdeal
import proofs.«154081_j67104569032788_1_alg».proof.Proof.Gen.ReferenceIdeal.Run
import proofs.«154081_j67104569032788_1_alg».proof.Proof.Gen.ReferenceIdeal.Read
import proofs.«154081_j67104569032788_1_alg».proof.Proof.Gen.Pre_finite_inputs
import proofs.«154081_j67104569032788_1_alg».proof.Proof.KernelIdealRun
import proofs.«154081_j67104569032788_1_alg».proof.Proof.KernelResult
import proofs.«154081_j67104569032788_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result buffer at
    `relu (aggregate (product x W) row col val)` of those arguments: the kernel program by its run read through the two
    regions, the reference by its run read stage by stage. -/
theorem algebraic : Cert.algebraic_KernelIdeal_ReferenceIdeal := by
  intro m ρ m' ρ' _ hagree
  refine ⟨fun c => Cert.KernelIdeal.Result.result
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Result.final_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4⟩ := hagree c
    rw [Cert.ReferenceIdeal.Read.val_main_v14_eq, Cert.Bridge.result_eq, h0, h1, h2, h3, h4]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
